-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x8192 : Shape := ⟨2, ![9, 8192]⟩
abbrev S8192x4096 : Shape := ⟨2, ![8192, 4096]⟩
abbrev S_ : Shape := ⟨0, ![]⟩

class Facts : Prop where
  bcast_S_S9x8192 : S_.BroadcastsInDim S9x8192 (![] : Fin 0 → Fin S9x8192.rank)
  reducesTo_S9x8192_S_d0_1 : S9x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S9x8192 .f32) (main_arg1 : FVec F S8192x4096 .f32) : IVec S_ 1 :=
  let main_v0 : FVec F S9x8192 .f32 := Host.absf main_arg0
  let main_cst : FVec F S_ .f32 := constant S_ .f32 0x7F800000#32
  let main_v1 : FVec F S9x8192 .f32 := broadcastInDim S9x8192 ![] bcast_S_S9x8192 main_cst
  let main_v2 : IVec S9x8192 1 := cmpf .olt main_v0 main_v1
  let main_c : IVec S_ 1 := constantI S_ 1 1#1
  let main_v3 : IVec S_ 1 := (fun x v => Host.reduce IntOp.andi x v reducesTo_S9x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S9x8192 : Shape := ⟨2, ![9, 8192]⟩
abbrev S8192x4096 : Shape := ⟨2, ![8192, 4096]⟩
abbrev S8192x128 : Shape := ⟨2, ![8192, 128]⟩
abbrev S128x128 : Shape := ⟨2, ![128, 128]⟩
abbrev S8448x128 : Shape := ⟨2, ![8448, 128]⟩
abbrev S9x128 : Shape := ⟨2, ![9, 128]⟩
abbrev S9x8448 : Shape := ⟨2, ![9, 8448]⟩
abbrev S1x8192 : Shape := ⟨2, ![1, 8192]⟩
abbrev S8192 : Shape := ⟨1, ![8192]⟩
abbrev S8192x1 : Shape := ⟨2, ![8192, 1]⟩

abbrev nBuf : Space → Nat
  | .hbm => 3
  | .vmem => 5
  | .smem => 0
  | _ => 0

abbrev bufTy : (tb : Table) → Fin (tcTables nBuf tb) → BufTy
  | .hbm, ⟨0, _⟩ => ⟨S9x8192, .f32⟩
  | .hbm, ⟨1, _⟩ => ⟨S8192x4096, .f32⟩
  | .hbm, ⟨2, _⟩ => ⟨S8192x4096, .f32⟩
  | .local _ .vmem, ⟨0, _⟩ => ⟨S9x8192, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | _, _ => ⟨S9x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S9x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x128_S8192x128_0_0 : ∀ a, (![0, 0] : Fin 2 → Nat) a + S8192x128.size a ≤ S8192x128.size a
  h_S8192x128 : 0 < S8192x128.numel
  inb_S9x8192_S9x8192_0_0 : ∀ a, (![0, 0] : Fin 2 → Nat) a + S9x8192.size a ≤ S9x8192.size a
  h_S9x8192 : 0 < S9x8192.numel
  concatenates_S128x128_S8192x128_S128x128_S8448x128_d0 : Shape.Concatenates [S128x128, S8192x128, S128x128] S8448x128 0
  concatenates_S9x128_S9x8192_S9x128_S9x8448_d1 : Shape.Concatenates [S9x128, S9x8192, S9x128] S9x8448 1
  slices_S9x8448_o0_0_S1x8192 : S9x8448.Slices ![0, 0] S1x8192
  shapeCasts_S1x8192_S8192 : S1x8192.ShapeCasts S8192
  slices_S8448x128_o0_0_S8192x128 : S8448x128.Slices ![0, 0] S8192x128
  shapeCasts_S8192_S8192x1 : S8192.ShapeCasts S8192x1
  broadcasts_S8192x1_S8192x128 : S8192x1.Broadcasts S8192x128
  slices_S9x8448_o1_64_S1x8192 : S9x8448.Slices ![1, 64] S1x8192
  slices_S8448x128_o64_0_S8192x128 : S8448x128.Slices ![64, 0] S8192x128
  slices_S9x8448_o2_120_S1x8192 : S9x8448.Slices ![2, 120] S1x8192
  slices_S8448x128_o120_0_S8192x128 : S8448x128.Slices ![120, 0] S8192x128
  slices_S9x8448_o3_127_S1x8192 : S9x8448.Slices ![3, 127] S1x8192
  slices_S8448x128_o127_0_S8192x128 : S8448x128.Slices ![127, 0] S8192x128
  slices_S9x8448_o4_128_S1x8192 : S9x8448.Slices ![4, 128] S1x8192
  slices_S8448x128_o128_0_S8192x128 : S8448x128.Slices ![128, 0] S8192x128
  slices_S9x8448_o5_129_S1x8192 : S9x8448.Slices ![5, 129] S1x8192
  slices_S8448x128_o129_0_S8192x128 : S8448x128.Slices ![129, 0] S8192x128
  slices_S9x8448_o6_136_S1x8192 : S9x8448.Slices ![6, 136] S1x8192
  slices_S8448x128_o136_0_S8192x128 : S8448x128.Slices ![136, 0] S8192x128
  slices_S9x8448_o7_192_S1x8192 : S9x8448.Slices ![7, 192] S1x8192
  slices_S8448x128_o192_0_S8192x128 : S8448x128.Slices ![192, 0] S8192x128
  slices_S9x8448_o8_256_S1x8192 : S9x8448.Slices ![8, 256] S1x8192
  slices_S8448x128_o256_0_S8192x128 : S8448x128.Slices ![256, 0] S8192x128
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S9x8192.size a ≤ S9x8192.size a
  hwx0_0 : ∀ i : grid0.Coords, EltTy.bits .f32 = 32 ∨ (Rect.block (s := S9x8192) S9x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x4096.size a
  hwx0_1 : ∀ i : grid0.Coords, EltTy.bits .f32 = 32 ∨ (Rect.block (s := S8192x4096) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x4096.size a
  hwx0_2 : ∀ i : grid0.Coords, EltTy.bits .f32 = 32 ∨ (Rect.block (s := S8192x4096) S8192x128.size (cc0_transform_2 i) (hinb0_2 i)).WholeWords (EltTy.packing .f32)

variable [Facts₀]

abbrev win0_0 : Pipeline.Window sig grid0 :=
  Pipeline.Window.ofSpec (Memref.whole main_arg0) S9x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S9x8192 : Shape := ⟨2, ![9, 8192]⟩
abbrev S8192x4096 : Shape := ⟨2, ![8192, 4096]⟩
abbrev S0 : Shape := ⟨1, ![0]⟩
abbrev S_ : Shape := ⟨0, ![]⟩
abbrev S1x8064 : Shape := ⟨2, ![1, 8064]⟩
abbrev S8064 : Shape := ⟨1, ![8064]⟩
abbrev S8064x1 : Shape := ⟨2, ![8064, 1]⟩
abbrev S8064x4096 : Shape := ⟨2, ![8064, 4096]⟩
abbrev S1 : Shape := ⟨1, ![1]⟩
abbrev S1x8128 : Shape := ⟨2, ![1, 8128]⟩
abbrev S8128 : Shape := ⟨1, ![8128]⟩
abbrev S8128x1 : Shape := ⟨2, ![8128, 1]⟩
abbrev S8128x4096 : Shape := ⟨2, ![8128, 4096]⟩
abbrev S1x8184 : Shape := ⟨2, ![1, 8184]⟩
abbrev S8184 : Shape := ⟨1, ![8184]⟩
abbrev S8184x1 : Shape := ⟨2, ![8184, 1]⟩
abbrev S8184x4096 : Shape := ⟨2, ![8184, 4096]⟩
abbrev S1x8191 : Shape := ⟨2, ![1, 8191]⟩
abbrev S8191 : Shape := ⟨1, ![8191]⟩
abbrev S8191x1 : Shape := ⟨2, ![8191, 1]⟩
abbrev S8191x4096 : Shape := ⟨2, ![8191, 4096]⟩
abbrev S1x8192 : Shape := ⟨2, ![1, 8192]⟩
abbrev S8192 : Shape := ⟨1, ![8192]⟩
abbrev S8192x1 : Shape := ⟨2, ![8192, 1]⟩

abbrev nBuf : Space → Nat
  | .hbm => 83
  | .vmem => 0
  | .smem => 0
  | _ => 0

abbrev bufTy : (tb : Table) → Fin (tcTables nBuf tb) → BufTy
  | .hbm, ⟨0, _⟩ => ⟨S9x8192, .f32⟩
  | .hbm, ⟨1, _⟩ => ⟨S8192x4096, .f32⟩
  | .hbm, ⟨2, _⟩ => ⟨S0, .i32⟩
  | .hbm, ⟨3, _⟩ => ⟨S_, .f32⟩
  | .hbm, ⟨4, _⟩ => ⟨S8192x4096, .f32⟩
  | .hbm, ⟨5, _⟩ => ⟨S1x8064, .f32⟩
  | .hbm, ⟨6, _⟩ => ⟨S8064, .f32⟩
  | .hbm, ⟨7, _⟩ => ⟨S8064x1, .f32⟩
  | .hbm, ⟨8, _⟩ => ⟨S8064x4096, .f32⟩
  | .hbm, ⟨9, _⟩ => ⟨S8064x4096, .f32⟩
  | .hbm, ⟨10, _⟩ => ⟨S8064x4096, .f32⟩
  | .hbm, ⟨11, _⟩ => ⟨S_, .i32⟩
  | .hbm, ⟨12, _⟩ => ⟨S1, .i32⟩
  | .hbm, ⟨13, _⟩ => ⟨S8192x4096, .f32⟩
  | .hbm, ⟨14, _⟩ => ⟨S1x8128, .f32⟩
  | .hbm, ⟨15, _⟩ => ⟨S8128, .f32⟩
  | .hbm, ⟨16, _⟩ => ⟨S8128x1, .f32⟩
  | .hbm, ⟨17, _⟩ => ⟨S8128x4096, .f32⟩
  | .hbm, ⟨18, _⟩ => ⟨S8128x4096, .f32⟩
  | .hbm, ⟨19, _⟩ => ⟨S8128x4096, .f32⟩
  | .hbm, ⟨20, _⟩ => ⟨S_, .i32⟩
  | .hbm, ⟨21, _⟩ => ⟨S1, .i32⟩
  | .hbm, ⟨22, _⟩ => ⟨S8192x4096, .f32⟩
  | .hbm, ⟨23, _⟩ => ⟨S1x8184, .f32⟩
  | .hbm, ⟨24, _⟩ => ⟨S8184, .f32⟩
  | .hbm, ⟨25, _⟩ => ⟨S8184x1, .f32⟩
  | .hbm, ⟨26, _⟩ => ⟨S8184x4096, .f32⟩
  | .hbm, ⟨27, _⟩ => ⟨S8184x4096, .f32⟩
  | .hbm, ⟨28, _⟩ => ⟨S8184x4096, .f32⟩
  | .hbm, ⟨29, _⟩ => ⟨S_, .i32⟩
  | .hbm, ⟨30, _⟩ => ⟨S1, .i32⟩
  | .hbm, ⟨31, _⟩ => ⟨S8192x4096, .f32⟩
  | .hbm, ⟨32, _⟩ => ⟨S1x8191, .f32⟩
  | .hbm, ⟨33, _⟩ => ⟨S8191, .f32⟩
  | .hbm, ⟨34, _⟩ => ⟨S8191x1, .f32⟩
  | .hbm, ⟨35, _⟩ => ⟨S8191x4096, .f32⟩
  | .hbm, ⟨36, _⟩ => ⟨S8191x4096, .f32⟩
  | .hbm, ⟨37, _⟩ => ⟨S8191x4096, .f32⟩
  | .hbm, ⟨38, _⟩ => ⟨S_, .i32⟩
  | .hbm, ⟨39, _⟩ => ⟨S1, .i32⟩
  | .hbm, ⟨40, _⟩ => ⟨S8192x4096, .f32⟩
  | .hbm, ⟨41, _⟩ => ⟨S1x8192, .f32⟩
  | .hbm, ⟨42, _⟩ => ⟨S8192, .f32⟩
  | .hbm, ⟨43, _⟩ => ⟨S8192x1, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S1x8191, .f32⟩
  | .hbm, ⟨48, _⟩ => ⟨S8191, .f32⟩
  | .hbm, ⟨49, _⟩ => ⟨S8191x1, .f32⟩
  | .hbm, ⟨50, _⟩ => ⟨S8191x4096, .f32⟩
  | .hbm, ⟨51, _⟩ => ⟨S8191x4096, .f32⟩
  | .hbm, ⟨52, _⟩ => ⟨S8191x4096, .f32⟩
  | .hbm, ⟨53, _⟩ => ⟨S_, .i32⟩
  | .hbm, ⟨54, _⟩ => ⟨S1, .i32⟩
  | .hbm, ⟨55, _⟩ => ⟨S8192x4096, .f32⟩
  | .hbm, ⟨56, _⟩ => ⟨S1x8184, .f32⟩
  | .hbm, ⟨57, _⟩ => ⟨S8184, .f32⟩
  | .hbm, ⟨58, _⟩ => ⟨S8184x1, .f32⟩
  | .hbm, ⟨59, _⟩ => ⟨S8184x4096, .f32⟩
  | .hbm, ⟨60, _⟩ => ⟨S8184x4096, .f32⟩
  | .hbm, ⟨61, _⟩ => ⟨S8184x4096, .f32⟩
  | .hbm, ⟨62, _⟩ => ⟨S_, .i32⟩
  | .hbm, ⟨63, _⟩ => ⟨S1, .i32⟩
  | .hbm, ⟨64, _⟩ => ⟨S8192x4096, .f32⟩
  | .hbm, ⟨65, _⟩ => ⟨S1x8128, .f32⟩
  | .hbm, ⟨66, _⟩ => ⟨S8128, .f32⟩
  | .hbm, ⟨67, _⟩ => ⟨S8128x1, .f32⟩
  | .hbm, ⟨68, _⟩ => ⟨S8128x4096, .f32⟩
  | .hbm, ⟨69, _⟩ => ⟨S8128x4096, .f32⟩
  | .hbm, ⟨70, _⟩ => ⟨S8128x4096, .f32⟩
  | .hbm, ⟨71, _⟩ => ⟨S_, .i32⟩
  | .hbm, ⟨72, _⟩ => ⟨S1, .i32⟩
  | .hbm, ⟨73, _⟩ => ⟨S8192x4096, .f32⟩
  | .hbm, ⟨74, _⟩ => ⟨S1x8064, .f32⟩
  | .hbm, ⟨75, _⟩ => ⟨S8064, .f32⟩
  | .hbm, ⟨76, _⟩ => ⟨S8064x1, .f32⟩
  | .hbm, ⟨77, _⟩ => ⟨S8064x4096, .f32⟩
  | .hbm, ⟨78, _⟩ => ⟨S8064x4096, .f32⟩
  | .hbm, ⟨79, _⟩ => ⟨S8064x4096, .f32⟩
  | .hbm, ⟨80, _⟩ => ⟨S_, .i32⟩
  | .hbm, ⟨81, _⟩ => ⟨S1, .i32⟩
  | .hbm, ⟨82, _⟩ => ⟨S8192x4096, .f32⟩
  | _, _ => ⟨S9x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c_7 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]

class Facts₀ : Prop where
  hz_S0 : S0.numel = 0
  bcast_S_S8192x4096 : S_.BroadcastsInDim S8192x4096 (![] : Fin 0 → Fin S8192x4096.rank)
  slices_S9x8192_S1x8064_0_0 : S9x8192.Slices ![0, 0] S1x8064
  shapeCasts_S1x8064_S8064 : S1x8064.ShapeCasts S8064
  bcast_S8064_S8064x1_0 : S8064.BroadcastsInDim S8064x1 (![0] : Fin 1 → Fin S8064x1.rank)
  slices_S8192x4096_S8064x4096_0_0 : S8192x4096.Slices ![0, 0] S8064x4096
  bcast_S8064x1_S8064x4096_0_1 : S8064x1.BroadcastsInDim S8064x4096 (![0, 1] : Fin 2 → Fin S8064x4096.rank)
  bcast_S_S1 : S_.BroadcastsInDim S1 (![] : Fin 0 → Fin S1.rank)
  slices_S9x8192_S1x8128_1_0 : S9x8192.Slices ![1, 0] S1x8128
  shapeCasts_S1x8128_S8128 : S1x8128.ShapeCasts S8128
  bcast_S8128_S8128x1_0 : S8128.BroadcastsInDim S8128x1 (![0] : Fin 1 → Fin S8128x1.rank)
  slices_S8192x4096_S8128x4096_0_0 : S8192x4096.Slices ![0, 0] S8128x4096
  bcast_S8128x1_S8128x4096_0_1 : S8128x1.BroadcastsInDim S8128x4096 (![0, 1] : Fin 2 → Fin S8128x4096.rank)
  slices_S9x8192_S1x8184_2_0 : S9x8192.Slices ![2, 0] S1x8184
  shapeCasts_S1x8184_S8184 : S1x8184.ShapeCasts S8184
  bcast_S8184_S8184x1_0 : S8184.BroadcastsInDim S8184x1 (![0] : Fin 1 → Fin S8184x1.rank)
  slices_S8192x4096_S8184x4096_0_0 : S8192x4096.Slices ![0, 0] S8184x4096
  bcast_S8184x1_S8184x4096_0_1 : S8184x1.BroadcastsInDim S8184x4096 (![0, 1] : Fin 2 → Fin S8184x4096.rank)
  slices_S9x8192_S1x8191_3_0 : S9x8192.Slices ![3, 0] S1x8191
  shapeCasts_S1x8191_S8191 : S1x8191.ShapeCasts S8191
  bcast_S8191_S8191x1_0 : S8191.BroadcastsInDim S8191x1 (![0] : Fin 1 → Fin S8191x1.rank)
  slices_S8192x4096_S8191x4096_0_0 : S8192x4096.Slices ![0, 0] S8191x4096
  bcast_S8191x1_S8191x4096_0_1 : S8191x1.BroadcastsInDim S8191x4096 (![0, 1] : Fin 2 → Fin S8191x4096.rank)
  slices_S9x8192_S1x8192_4_0 : S9x8192.Slices ![4, 0] S1x8192
  shapeCasts_S1x8192_S8192 : S1x8192.ShapeCasts S8192
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  slices_S9x8192_S1x8191_5_1 : S9x8192.Slices ![5, 1] S1x8191
  slices_S8192x4096_S8191x4096_1_0 : S8192x4096.Slices ![1, 0] S8191x4096
  slices_S9x8192_S1x8184_6_8 : S9x8192.Slices ![6, 8] S1x8184
  slices_S8192x4096_S8184x4096_8_0 : S8192x4096.Slices ![8, 0] S8184x4096
  slices_S9x8192_S1x8128_7_64 : S9x8192.Slices ![7, 64] S1x8128
  slices_S8192x4096_S8128x4096_64_0 : S8192x4096.Slices ![64, 0] S8128x4096
  slices_S9x8192_S1x8064_8_128 : S9x8192.Slices ![8, 128] S1x8064
  slices_S8192x4096_S8064x4096_128_0 : S8192x4096.Slices ![128, 0] S8064x4096
  scatter_S8192x4096_S1_S8064x4096_01_n_0_0_wf : ScatterDims.WF S8192x4096 S1 S8064x4096 [0, 1] [] [0] 0
  scatter_S8192x4096_S1_S8128x4096_01_n_0_0_wf : ScatterDims.WF S8192x4096 S1 S8128x4096 [0, 1] [] [0] 0
  scatter_S8192x4096_S1_S8184x4096_01_n_0_0_wf : ScatterDims.WF S8192x4096 S1 S8184x4096 [0, 1] [] [0] 0
  scatter_S8192x4096_S1_S8191x4096_01_n_0_0_wf : ScatterDims.WF S8192x4096 S1 S8191x4096 [0, 1] [] [0] 0
  scatter_S8192x4096_S0_S8192x4096_01_n_n_0_wf : ScatterDims.WF S8192x4096 S0 S8192x4096 [0, 1] [] [] 0

variable [Facts₀]

def scatter_S8192x4096_S1_S8064x4096_01_n_0_0 : ScatterDims S8192x4096 S1 S8064x4096 where
  updateWindowDims := [0, 1]
  insertedWindowDims := []
  scatterDimsToOperandDims := [0]
  indexVectorDim := 0
  wf := scatter_S8192x4096_S1_S8064x4096_01_n_0_0_wf
def scatter_S8192x4096_S1_S8128x4096_01_n_0_0 : ScatterDims S8192x4096 S1 S8128x4096 where
  updateWindowDims := [0, 1]
  insertedWindowDims := []
  scatterDimsToOperandDims := [0]
  indexVectorDim := 0
  wf := scatter_S8192x4096_S1_S8128x4096_01_n_0_0_wf
def scatter_S8192x4096_S1_S8184x4096_01_n_0_0 : ScatterDims S8192x4096 S1 S8184x4096 where
  updateWindowDims := [0, 1]
  insertedWindowDims := []
  scatterDimsToOperandDims := [0]
  indexVectorDim := 0
  wf := scatter_S8192x4096_S1_S8184x4096_01_n_0_0_wf
def scatter_S8192x4096_S1_S8191x4096_01_n_0_0 : ScatterDims S8192x4096 S1 S8191x4096 where
  updateWindowDims := [0, 1]
  insertedWindowDims := []
  scatterDimsToOperandDims := [0]
  indexVectorDim := 0
  wf := scatter_S8192x4096_S1_S8191x4096_01_n_0_0_wf
def scatter_S8192x4096_S0_S8192x4096_01_n_n_0 : ScatterDims S8192x4096 S0 S8192x4096 where
  updateWindowDims := [0, 1]
  insertedWindowDims := []
  scatterDimsToOperandDims := []
  indexVectorDim := 0
  wf := scatter_S8192x4096_S0_S8192x4096_01_n_n_0_wf

class Facts : Prop extends Facts₀ where

variable [Facts]
-- ==== Proof.LibConcat3.lean ====
/-
  A concatenation of THREE pieces along one axis, read at an index.

  The result's coordinate on the joined axis falls in exactly one piece: in the first when it is below the first
  piece's extent, in the second when it is at or past that extent and below the first two extents together, in
  the third otherwise. In each case the result's element is the piece's element at the index with the same
  coordinates off the joined axis and, on it, the coordinate less the extents of the pieces before. The three
  lemmas below say so for any shapes and any element type; each is the library's general statement about piece
  `k` of a list of pieces, at `k = 0, 1, 2`, with the extents before the piece summed.
-/
import Idealize.ShloMosaic.Lib.Pipeline.Value

namespace Idealize.ShloMosaic.Concat3

open Idealize.ShloMosaic

variable {α : Type} {t s₁ s₂ s₃ : Shape}

/-- An index whose joined-axis coordinate lies in the FIRST piece reads the first piece, at the same
    coordinates. -/
theorem apply_fst (a : Fin t.rank) (x₁ : s₁.Idx → α) (x₂ : s₂.Idx → α) (x₃ : s₃.Idx → α)
    (h : Shape.Concatenates [s₁, s₂, s₃] t a) (j : t.Idx) (hr : s₁.rank = t.rank) (i : s₁.Idx)
    (hi : ∀ b : Fin s₁.rank, b.cast hr ≠ a → (i b).val = (j (b.cast hr)).val)
    (ha : (i (a.cast hr.symm)).val = (j a).val) :
    concatenate t a [⟨s₁, x₁⟩, ⟨s₂, x₂⟩, ⟨s₃, x₃⟩] h j = x₁ i :=
  concatenate_apply_piece a [⟨s₁, x₁⟩, ⟨s₂, x₂⟩, ⟨s₃, x₃⟩] h j 0 (by simp) s₁ x₁ rfl hr 0 rfl i hi (by omega)

/-- An index whose joined-axis coordinate lies in the SECOND piece reads the second piece, the first piece's
    extent taken off that coordinate. -/
theorem apply_snd (a : Fin t.rank) (x₁ : s₁.Idx → α) (x₂ : s₂.Idx → α) (x₃ : s₃.Idx → α)
    (h : Shape.Concatenates [s₁, s₂, s₃] t a) (j : t.Idx) (hr₁ : s₁.rank = t.rank) (hr : s₂.rank = t.rank)
    (i : s₂.Idx) (hi : ∀ b : Fin s₂.rank, b.cast hr ≠ a → (i b).val = (j (b.cast hr)).val)
    (ha : s₁.size (a.cast hr₁.symm) + (i (a.cast hr.symm)).val = (j a).val) :
    concatenate t a [⟨s₁, x₁⟩, ⟨s₂, x₂⟩, ⟨s₃, x₃⟩] h j = x₂ i :=
  concatenate_apply_piece a [⟨s₁, x₁⟩, ⟨s₂, x₂⟩, ⟨s₃, x₃⟩] h j 1 (by simp) s₂ x₂ rfl hr
    (s₁.size (a.cast hr₁.symm))
    (by show (if h : s₁.rank = t.rank then s₁.size (a.cast h.symm) else 0) + 0 = _
        rw [dif_pos hr₁, Nat.add_zero])
    i hi ha

/-- An index whose joined-axis coordinate lies in the THIRD piece reads the third piece, the first two pieces'
    extents taken off that coordinate. -/
theorem apply_thd (a : Fin t.rank) (x₁ : s₁.Idx → α) (x₂ : s₂.Idx → α) (x₃ : s₃.Idx → α)
    (h : Shape.Concatenates [s₁, s₂, s₃] t a) (j : t.Idx) (hr₁ : s₁.rank = t.rank) (hr₂ : s₂.rank = t.rank)
    (hr : s₃.rank = t.rank) (i : s₃.Idx)
    (hi : ∀ b : Fin s₃.rank, b.cast hr ≠ a → (i b).val = (j (b.cast hr)).val)
    (ha : s₁.size (a.cast hr₁.symm) + s₂.size (a.cast hr₂.symm) + (i (a.cast hr.symm)).val = (j a).val) :
    concatenate t a [⟨s₁, x₁⟩, ⟨s₂, x₂⟩, ⟨s₃, x₃⟩] h j = x₃ i :=
  concatenate_apply_piece a [⟨s₁, x₁⟩, ⟨s₂, x₂⟩, ⟨s₃, x₃⟩] h j 2 (by simp) s₃ x₃ rfl hr
    (s₁.size (a.cast hr₁.symm) + s₂.size (a.cast hr₂.symm))
    (by show (if h : s₁.rank = t.rank then s₁.size (a.cast h.symm) else 0)
            + ((if h : s₂.rank = t.rank then s₂.size (a.cast h.symm) else 0) + 0) = _
        rw [dif_pos hr₁, dif_pos hr₂, Nat.add_zero])
    i hi ha

end Idealize.ShloMosaic.Concat3
-- ==== Proof.BandSpec.lean ====
/-
  The banded product, element by element.

  The matrix `A` has nine diagonals at the offsets −128, −64, −8, −1, 0, 1, 8, 64, 128; row `k` of `diags` stores
  diagonal `k` indexed by the COLUMN of `A`: `A[r, r + off_k] = diags[k, r + off_k]`. So row `r` of `A · other` is
      Σ_k  [0 ≤ r + off_k < 8192]  diags[k, r + off_k] · other[r + off_k, ·].
  Both programs add the nine terms in the order k = 0 … 8 onto a zero. Written with both arrays padded by 128
  zeros in front and behind (`dpad`, `opad`), term `k` is `dpad k (s_k + r) · opad (s_k + r)` with
  `s_k = 128 + off_k`: inside the band this is the product of the two entries, outside it is `0 · 0 = 0`. The
  kernel computes exactly this padded form; the reference skips the terms outside the band, which is the same
  because `x + 0 = x` on the extended reals (no finiteness is used anywhere).
-/
import Idealize.ShloMosaic.PureOps.Ideal
import Idealize.ShloMosaic.Lib.ValueIdx

noncomputable section

namespace Cert.Band

open Idealize.ShloMosaic ValueIdx

/-- Entry `j` of diagonal `k` once 128 zeros stand in front of its 8192 entries and 128 behind. -/
def dpad (d : (⟨2, ![9, 8192]⟩ : Shape).Idx → EReal) (k : Fin 9) (j : Nat) : EReal :=
  if h : 128 ≤ j ∧ j < 8320 then d (ix2 k ⟨j - 128, by omega⟩) else 0

/-- Entry `(j, c)` of a matrix of 8192 rows once 128 zero rows stand above it and 128 below. -/
def opad {B : Nat} (o : (⟨2, ![8192, B]⟩ : Shape).Idx → EReal) (j : Nat) (c : Fin B) : EReal :=
  if h : 128 ≤ j ∧ j < 8320 then o (ix2 ⟨j - 128, by omega⟩ c) else 0

/-- The term of the diagonal stored in row `k`, read at the padded position `s + r`. -/
def term {B : Nat} (d : (⟨2, ![9, 8192]⟩ : Shape).Idx → EReal) (o : (⟨2, ![8192, B]⟩ : Shape).Idx → EReal)
    (k : Fin 9) (s : Nat) (r : Fin 8192) (c : Fin B) : EReal :=
  dpad d k (s + r.val) * opad o (s + r.val) c

/-- Element `(r, c)` of the banded product: the nine terms added in order onto zero. -/
def bandAt {B : Nat} (d : (⟨2, ![9, 8192]⟩ : Shape).Idx → EReal) (o : (⟨2, ![8192, B]⟩ : Shape).Idx → EReal)
    (r : Fin 8192) (c : Fin B) : EReal :=
  0 + term d o 0 0 r c + term d o 1 64 r c + term d o 2 120 r c + term d o 3 127 r c + term d o 4 128 r c
    + term d o 5 129 r c + term d o 6 136 r c + term d o 7 192 r c + term d o 8 256 r c

/-- The banded product as an array. -/
def band (d : (⟨2, ![9, 8192]⟩ : Shape).Idx → EReal) (o : (⟨2, ![8192, 4096]⟩ : Shape).Idx → EReal) :
    (⟨2, ![8192, 4096]⟩ : Shape).Idx → EReal :=
  fun i => bandAt d o (i 0) (i 1)

/-- A padded entry depends on one column of the matrix only: two matrices that agree on a pair of columns have
    the same padded entries there. -/
theorem opad_congr {B B' : Nat} (o : (⟨2, ![8192, B]⟩ : Shape).Idx → EReal) (o' : (⟨2, ![8192, B']⟩ : Shape).Idx → EReal)
    (c : Fin B) (c' : Fin B') (h : ∀ a : Fin 8192, o (ix2 a c) = o' (ix2 a c')) (j : Nat) :
    opad o j c = opad o' j c' := by
  unfold opad
  split
  · exact h _
  · rfl

/-- So an element of the banded product depends on one column of the matrix only. -/
theorem bandAt_congr {B B' : Nat} (d : (⟨2, ![9, 8192]⟩ : Shape).Idx → EReal)
    (o : (⟨2, ![8192, B]⟩ : Shape).Idx → EReal) (o' : (⟨2, ![8192, B']⟩ : Shape).Idx → EReal)
    (c : Fin B) (c' : Fin B') (h : ∀ a : Fin 8192, o (ix2 a c) = o' (ix2 a c')) (r : Fin 8192) :
    bandAt d o r c = bandAt d o' r c' := by
  unfold bandAt term
  simp only [opad_congr o o' c c' h]

/-- One step of the reference: a window of `L` rows starting at row `top`, whose row `p` carries the product of
    the two entries at `p + start`, added into an accumulator, adds term `k` — inside the window the term is that
    product, outside it the term is `0 · 0`. The three arithmetic hypotheses tie the window to the padded
    position `s`: `s + top = 128 + start`, the window and the two margins fill the 8192 rows, and one of the
    margins is empty. -/
theorem window_step {B : Nat} (d : (⟨2, ![9, 8192]⟩ : Shape).Idx → EReal) (o : (⟨2, ![8192, B]⟩ : Shape).Idx → EReal)
    (k : Fin 9) (s top L start : Nat) (hs : s + top = 128 + start) (hL : L + top + start = 8192)
    (h0 : top = 0 ∨ start = 0) (acc : EReal) (r : Fin 8192) (c : Fin B) (u : Fin L → EReal)
    (hu : ∀ p : Fin L, u p = d (ix2 k ⟨p.val + start, by omega⟩) * o (ix2 ⟨p.val + start, by omega⟩ c)) :
    (if h : top ≤ r.val ∧ r.val < top + L then acc + u ⟨r.val - top, by omega⟩ else acc) = acc + term d o k s r c := by
  have hr : r.val < 8192 := r.isLt
  unfold term dpad opad
  by_cases h : top ≤ r.val ∧ r.val < top + L
  · have hin : 128 ≤ s + r.val ∧ s + r.val < 8320 := by omega
    rw [dif_pos h, dif_pos hin, dif_pos hin, hu]
    have e : r.val - top + start = s + r.val - 128 := by omega
    simp only [e]
  · have hout : ¬ (128 ≤ s + r.val ∧ s + r.val < 8320) := by omega
    rw [dif_neg h, dif_neg hout, dif_neg hout, mul_zero, add_zero]

/-- The middle step of the reference (offset 0): the product of the two entries of row `r` is term 4. -/
theorem whole_step {B : Nat} (d : (⟨2, ![9, 8192]⟩ : Shape).Idx → EReal) (o : (⟨2, ![8192, B]⟩ : Shape).Idx → EReal)
    (r : Fin 8192) (c : Fin B) :
    d (ix2 4 r) * o (ix2 r c) = term d o 4 128 r c := by
  have hr : r.val < 8192 := r.isLt
  unfold term dpad opad
  have hin : 128 ≤ 128 + r.val ∧ 128 + r.val < 8320 := by omega
  rw [dif_pos hin, dif_pos hin]
  have e : 128 + r.val - 128 = r.val := by omega
  simp only [e]

end Cert.Band

end
-- ==== Proof.KernelBand.lean ====
/-
  The kernel, read at an index: after its 32 grid points the output array holds the banded product.

  At grid point `t` the body sees all of `diags` and the 128 columns `128·t … 128·t + 127` of `other`. It puts 128
  zero columns in front of and behind the diagonals (a 9 × 8448 array) and 128 zero rows above and below its
  block of `other` (8448 × 128), and adds, for k = 0 … 8, the product of row `k` of the padded diagonals from
  column `s_k` on with the rows of the padded block from row `s_k` on, onto a zero block. Element `(r, q)` of what it
  stores is therefore the banded product's element `(r, 128·t + q)` in its padded form, and the 32 stored blocks
  tile the output array.
-/
import proofs.«155765_j76501957477134_1_alg».proof.Proof.Gen.KernelIdeal.Value
import proofs.«155765_j76501957477134_1_alg».proof.Proof.LibConcat3
import proofs.«155765_j76501957477134_1_alg».proof.Proof.BandSpec
import Idealize.ShloMosaic.PureOps.Ideal.Laws

noncomputable section

namespace Cert.KernelIdeal.BandValue

open Cert.KernelIdeal Cert.KernelIdeal.Gen Idealize.ShloMosaic Idealize.ShloMosaic.TcCoe Idealize.SL.Sem
open Idealize.ShloMosaic.ValueIdx
open Idealize.ShloMosaic.Pipeline (Dat)

/-! ## The two padded values -/

/-- The diagonals with 128 zero columns on either side, read at row `k`, column `j`. -/
theorem pad_diag (P0 : Vec Ideal S9x8192 .f32) (i : S9x8448.Idx) (k : Fin 9) (j : Nat)
    (h0 : (i 0).val = k.val) (h1 : (i 1).val = j) :
    k0_pay3 (F := Ideal) P0 i = Band.dpad P0 k j := by
  have hj : (i 1).val < 8448 := (i 1).isLt
  have hk : (i 0).val < 9 := (i 0).isLt
  unfold k0_pay3 Band.dpad
  by_cases c1 : j < 128
  · rw [dif_neg (by omega)]
    refine (Concat3.apply_fst _ _ _ _ concatenates_S9x128_S9x8192_S9x128_S9x8448_d1 i rfl
      (ix2 ⟨(i 0).val, hk⟩ ⟨(i 1).val, by omega⟩) ?_ ?_).trans ?_
    · intro b hb
      match b with
      | ⟨0, _⟩ => rfl
      | ⟨1, _⟩ => exact absurd (Fin.ext rfl) hb
    · rfl
    · exact Ideal.ofBits_zero_f32
  · by_cases c2 : j < 8320
    · rw [dif_pos ⟨by omega, c2⟩]
      refine (Concat3.apply_snd _ _ _ _ concatenates_S9x128_S9x8192_S9x128_S9x8448_d1 i rfl rfl
        (ix2 ⟨(i 0).val, hk⟩ ⟨(i 1).val - 128, by omega⟩) ?_ ?_).trans ?_
      · intro b hb
        match b with
        | ⟨0, _⟩ => rfl
        | ⟨1, _⟩ => exact absurd (Fin.ext rfl) hb
      · show 128 + ((i 1).val - 128) = (i 1).val
        omega
      · congr 1
        funext e; apply Fin.ext
        match e with
        | ⟨0, _⟩ => exact h0
        | ⟨1, _⟩ => show (i 1).val - 128 = j - 128; omega
    · rw [dif_neg (by omega)]
      refine (Concat3.apply_thd _ _ _ _ concatenates_S9x128_S9x8192_S9x128_S9x8448_d1 i rfl rfl rfl
        (ix2 ⟨(i 0).val, hk⟩ ⟨(i 1).val - 8320, by omega⟩) ?_ ?_).trans ?_
      · intro b hb
        match b with
        | ⟨0, _⟩ => rfl
        | ⟨1, _⟩ => exact absurd (Fin.ext rfl) hb
      · show 128 + 8192 + ((i 1).val - 8320) = (i 1).val
        omega
      · exact Ideal.ofBits_zero_f32

/-- The block of `other` with 128 zero rows above and below, read at row `j`, column `q`. -/
theorem pad_other (P1 : Vec Ideal S8192x128 .f32) (i : S8448x128.Idx) (j : Nat) (q : Fin 128)
    (h0 : (i 0).val = j) (h1 : (i 1).val = q.val) :
    k0_pay2 (F := Ideal) P1 i = Band.opad P1 j q := by
  have hj : (i 0).val < 8448 := (i 0).isLt
  have hq : (i 1).val < 128 := (i 1).isLt
  unfold k0_pay2 Band.opad
  by_cases c1 : j < 128
  · rw [dif_neg (by omega)]
    refine (Concat3.apply_fst _ _ _ _ concatenates_S128x128_S8192x128_S128x128_S8448x128_d0 i rfl
      (ix2 ⟨(i 0).val, by omega⟩ ⟨(i 1).val, hq⟩) ?_ ?_).trans ?_
    · intro b hb
      match b with
      | ⟨0, _⟩ => exact absurd (Fin.ext rfl) hb
      | ⟨1, _⟩ => rfl
    · rfl
    · exact Ideal.ofBits_zero_f32
  · by_cases c2 : j < 8320
    · rw [dif_pos ⟨by omega, c2⟩]
      refine (Concat3.apply_snd _ _ _ _ concatenates_S128x128_S8192x128_S128x128_S8448x128_d0 i rfl rfl
        (ix2 ⟨(i 0).val - 128, by omega⟩ ⟨(i 1).val, hq⟩) ?_ ?_).trans ?_
      · intro b hb
        match b with
        | ⟨0, _⟩ => exact absurd (Fin.ext rfl) hb
        | ⟨1, _⟩ => rfl
      · show 128 + ((i 0).val - 128) = (i 0).val
        omega
      · congr 1
        funext e; apply Fin.ext
        match e with
        | ⟨0, _⟩ => show (i 0).val - 128 = j - 128; omega
        | ⟨1, _⟩ => exact h1
    · rw [dif_neg (by omega)]
      refine (Concat3.apply_thd _ _ _ _ concatenates_S128x128_S8192x128_S128x128_S8448x128_d0 i rfl rfl rfl
        (ix2 ⟨(i 0).val - 8320, by omega⟩ ⟨(i 1).val, hq⟩) ?_ ?_).trans ?_
      · intro b hb
        match b with
        | ⟨0, _⟩ => exact absurd (Fin.ext rfl) hb
        | ⟨1, _⟩ => rfl
      · show 128 + 8192 + ((i 0).val - 8320) = (i 0).val
        omega
      · exact Ideal.ofBits_zero_f32

/-! ## What one grid point stores -/

/-- Element `y` of the stored block is the banded product of the diagonals and the point's block of `other`. -/
theorem block_eq (P0 : Vec Ideal S9x8192 .f32) (P1 : Vec Ideal S8192x128 .f32) (y : S8192x128.Idx) :
    Value.E2 (F := Ideal) P0 P1 y = Band.bandAt P0 P1 (y 0) (y 1) := by
  have hy0 : (y 0).val < 8192 := (y 0).isLt
  unfold Band.bandAt Band.term
  rw [← pad_diag P0 (Value.ix2_0 y) 0 (0 + (y 0).val) rfl (by show (y 0).val = 0 + (y 0).val; omega),
    ← pad_other P1 (Value.ix2_1 y) (0 + (y 0).val) (y 1) (by show (y 0).val = 0 + (y 0).val; omega) rfl,
    ← pad_diag P0 (Value.ix2_2 y) 1 (64 + (y 0).val) rfl (by show (y 0).val + 64 = 64 + (y 0).val; omega),
    ← pad_other P1 (Value.ix2_3 y) (64 + (y 0).val) (y 1) (by show (y 0).val + 64 = 64 + (y 0).val; omega) rfl,
    ← pad_diag P0 (Value.ix2_4 y) 2 (120 + (y 0).val) rfl (by show (y 0).val + 120 = 120 + (y 0).val; omega),
    ← pad_other P1 (Value.ix2_5 y) (120 + (y 0).val) (y 1) (by show (y 0).val + 120 = 120 + (y 0).val; omega) rfl,
    ← pad_diag P0 (Value.ix2_6 y) 3 (127 + (y 0).val) rfl (by show (y 0).val + 127 = 127 + (y 0).val; omega),
    ← pad_other P1 (Value.ix2_7 y) (127 + (y 0).val) (y 1) (by show (y 0).val + 127 = 127 + (y 0).val; omega) rfl,
    ← pad_diag P0 (Value.ix2_8 y) 4 (128 + (y 0).val) rfl (by show (y 0).val + 128 = 128 + (y 0).val; omega),
    ← pad_other P1 (Value.ix2_9 y) (128 + (y 0).val) (y 1) (by show (y 0).val + 128 = 128 + (y 0).val; omega) rfl,
    ← pad_diag P0 (Value.ix2_10 y) 5 (129 + (y 0).val) rfl (by show (y 0).val + 129 = 129 + (y 0).val; omega),
    ← pad_other P1 (Value.ix2_11 y) (129 + (y 0).val) (y 1) (by show (y 0).val + 129 = 129 + (y 0).val; omega) rfl,
    ← pad_diag P0 (Value.ix2_12 y) 6 (136 + (y 0).val) rfl (by show (y 0).val + 136 = 136 + (y 0).val; omega),
    ← pad_other P1 (Value.ix2_13 y) (136 + (y 0).val) (y 1) (by show (y 0).val + 136 = 136 + (y 0).val; omega) rfl,
    ← pad_diag P0 (Value.ix2_14 y) 7 (192 + (y 0).val) rfl (by show (y 0).val + 192 = 192 + (y 0).val; omega),
    ← pad_other P1 (Value.ix2_15 y) (192 + (y 0).val) (y 1) (by show (y 0).val + 192 = 192 + (y 0).val; omega) rfl,
    ← pad_diag P0 (Value.ix2_16 y) 8 (256 + (y 0).val) rfl (by show (y 0).val + 256 = 256 + (y 0).val; omega),
    ← pad_other P1 (Value.ix2_17 y) (256 + (y 0).val) (y 1) (by show (y 0).val + 256 = 256 + (y 0).val; omega) rfl,
    ← Ideal.ofBits_zero_f32]
  rfl

/-! ## From the 32 stored blocks to the output array -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the diagonals' one block is block `(0, 0)` at every point; the block of
    `other` and the output block at point `t` are both block `(0, t)`. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The diagonals as the region finds them, and the point's copy of them; `other` and the point's block of it. -/
abbrev darr (c : Dev nD) : Vec Ideal S9x8192 .f32 := V m c main_arg0
abbrev oarr (c : Dev nD) : Vec Ideal S8192x4096 .f32 := V m c main_arg1
abbrev dblk (c : Dev nD) (t : Fin cfg0.N) : Vec Ideal S9x8192 .f32 := iblk m c 0 t
abbrev oblk (c : Dev nD) (t : Fin cfg0.N) : Vec Ideal S8192x128 .f32 := iblk m c 1 t

/-- Every point's block of the diagonals is the whole array. -/
theorem dblk_eq (c : Dev nD) (t : Fin cfg0.N) : dblk m c t = darr m c := by
  obtain ⟨e00, e01, -⟩ := idx_facts t
  funext i
  show V m c main_arg0 (((cfg0.win 0).blk t).view.emb i) = V m c main_arg0 i
  congr 1
  funext a; apply Fin.ext
  match a with
  | ⟨0, _⟩ => show win0_0.index t (0 : Fin 2) * 9 + 1 * (i 0).val = (i 0).val; omega
  | ⟨1, _⟩ => show win0_0.index t (1 : Fin 2) * 8192 + 1 * (i 1).val = (i 1).val; omega

/-- Column `q` of point `t`'s block of `other` is column `128·t + q` of the array. -/
theorem oblk_apply (c : Dev nD) (t : Fin cfg0.N) (a : Fin 8192) (q : Fin 128) (hb : 128 * t.val + q.val < 4096) :
    oblk m c t (ix2 a q) = oarr m c (ix2 a ⟨128 * t.val + q.val, hb⟩) := by
  obtain ⟨-, -, e10, e11, -⟩ := idx_facts t
  show V m c main_arg1 (((cfg0.win 1).blk t).view.emb (ix2 a q)) = V m c main_arg1 (ix2 a ⟨128 * t.val + q.val, hb⟩)
  congr 1
  funext e; apply Fin.ext
  match e with
  | ⟨0, _⟩ => show win0_1.index t (0 : Fin 2) * 8192 + 1 * a.val = a.val; omega
  | ⟨1, _⟩ => show win0_1.index t (1 : Fin 2) * 128 + 1 * q.val = 128 * t.val + q.val; omega

/-- Element `y` of what point `t` writes back is the banded product's element `(y₀, 128·t + y₁)`. -/
theorem flushed_apply (c : Dev nD) (t : Fin cfg0.N) (y : S8192x128.Idx) (hb : 128 * t.val + (y 1).val < 4096) :
    (dats m 0 c).flushed 2 t y = Band.bandAt (darr m c) (oarr m c) (y 0) ⟨128 * t.val + (y 1).val, hb⟩ := by
  refine Eq.trans (?_ : _ = Value.E2 (F := Ideal) (dblk m c t) (oblk m c t) y) ?_
  · rw [Value.flushed2]
    show out0_2 (dblk m c t) (oblk m c t) y = _
    unfold out0_2
    simp only [View.ld_unit_zero (S := S8192x128) hz, View.ld_unit_zero (S := S9x8192) hz]
    exact Value.canon2_eq _ _ y
  · rw [block_eq, dblk_eq]
    exact Band.bandAt_congr _ _ _ (y 1) ⟨_, hb⟩ (fun a => oblk_apply m c t a (y 1) hb) (y 0)

/-- WHAT POINT `t` WRITES BACK is block `t` of the banded product of the two argument arrays. -/
theorem flushed_eq (c : Dev nD) (t : Fin cfg0.N) :
    (dats m 0 c).flushed 2 t = ((cfg0.win 2).blk t).view.read (Elt Ideal) (Band.band (darr m c) (oarr m c)) := by
  obtain ⟨-, -, -, -, e20, e21⟩ := idx_facts t
  have hN : cfg0.N = 32 := N_0
  have ht : t.val < 32 := hN ▸ t.isLt
  funext y
  have hy0 : (y 0).val < 8192 := (y 0).isLt
  have hy1 : (y 1).val < 128 := (y 1).isLt
  refine (flushed_apply m c t y (by omega)).trans ?_
  show _ = Band.bandAt (darr m c) (oarr m c) ((((cfg0.win 2).blk t).view.emb y) 0) ((((cfg0.win 2).blk t).view.emb y) 1)
  congr 1
  · apply Fin.ext
    show (y 0).val = win0_2.index t (0 : Fin 2) * 8192 + 1 * (y 0).val
    omega
  · apply Fin.ext
    show 128 * t.val + (y 1).val = win0_2.index t (1 : Fin 2) * 128 + 1 * (y 1).val
    omega

/-- An index of the output array is in point `t`'s block iff each coordinate is in the block's range on its axis. -/
theorem mem_blk (t : Fin cfg0.N) (i : S8192x4096.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v0).slice (win0_2.rect t)).set ↔ _
  rw [View.set_slice_whole, Rect.mem_set_unit]
  exact Iff.rfl

/-- THE OUTPUT ARRAY after the run is the banded product: column `c` lies in the block of point `c / 128`. -/
theorem final (c : Dev nD) : (dats m 0 c).arrAt 2 cfg0.N = Band.band (darr m c) (oarr m c) := by
  have hN : cfg0.N = 32 := N_0
  refine (dats m 0 c).arrAt_eq_of_cover 2 (Band.band (darr m c) (oarr m c)) (fun t _ => flushed_eq m c t) (fun i => ?_)
  have hi0 : (i 0).val < 8192 := (i 0).isLt
  have hi1 : (i 1).val < 4096 := (i 1).isLt
  have hlt : (i 1).val / 128 < cfg0.N := by rw [hN]; omega
  obtain ⟨-, -, -, -, e20, e21⟩ := idx_facts ⟨(i 1).val / 128, hlt⟩
  have e21' : win0_2.index ⟨(i 1).val / 128, hlt⟩ (1 : Fin 2) = (i 1).val / 128 := e21
  refine ⟨⟨(i 1).val / 128, hlt⟩, flush0_2 _, ?_⟩
  rw [mem_blk]
  intro a
  match a with
  | ⟨0, _⟩ =>
    show win0_2.index ⟨(i 1).val / 128, hlt⟩ (0 : Fin 2) * 8192 ≤ (i 0).val
      ∧ (i 0).val < win0_2.index ⟨(i 1).val / 128, hlt⟩ (0 : Fin 2) * 8192 + 8192
    omega
  | ⟨1, _⟩ =>
    show win0_2.index ⟨(i 1).val / 128, hlt⟩ (1 : Fin 2) * 128 ≤ (i 1).val
      ∧ (i 1).val < win0_2.index ⟨(i 1).val / 128, hlt⟩ (1 : Fin 2) * 128 + 128
    omega

/-- The kernel's run: the output array ends at the banded product of the argument arrays, which are unchanged. -/
theorem run : θ_run defs (onTc (τ := τ) (main (F := Ideal))) ⟨m, fun _ => 0, ρ⟩ fun r => ∀ c : Dev nD,
      r.2.mem ((c : Thread nD τ).loc main_v0)
        = Band.band (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.BandValue

end
-- ==== Proof.LibScatterLast.lean ====
import Idealize.ShloMosaic.PureOps

/-!
# Scatter with the overwriting combiner: the last update landing on an index wins

`Host.scatter d f x idx upd` is the left fold, over the update indices in row-major order, of
the step that replaces the accumulator's element at the update's result index `i` by
`f (r i) (upd j)` (an update that falls outside the operand leaves the accumulator alone).

For the combiner `f = fun _ b => b` every update landing on an operand index `i'` erases what
the earlier ones wrote there. So the result at `i'` is the value carried by the update that
lands on `i'` at the largest row-major position: later updates land elsewhere (or nowhere) and
do not touch `i'`.
-/

namespace Idealize.ShloMosaic.ScatterLast
open Idealize.ShloMosaic

/-- Left fold of a pointwise-update step over a list `L` of update labels, `tgt n` the (optional)
    position update `n` writes. A label with no target leaves the accumulator alone, a label with
    target `i` leaves every position `k ≠ i` alone. If no label of `L` targets `i'`, the fold
    leaves the accumulator's element at `i'` unchanged. -/
theorem foldl_step_of_no_hit {ι I α : Type}
    (tgt : ι → Option I) (step : (I → α) → ι → (I → α))
    (hnone : ∀ r n, tgt n = none → step r n = r)
    (hother : ∀ r n i k, tgt n = some i → k ≠ i → step r n k = r k)
    (i' : I) (L : List ι) :
    ∀ r : I → α, (∀ n ∈ L, tgt n ≠ some i') → L.foldl step r i' = r i' := by
  induction L with
  | nil => intro r _; rfl
  | cons n L ih =>
    intro r h
    rw [List.foldl_cons, ih _ (fun m hm => h m (List.mem_cons_of_mem _ hm))]
    have hn : tgt n ≠ some i' := h n (List.mem_cons_self ..)
    cases htn : tgt n with
    | none => rw [hnone r n htn]
    | some i =>
      have hne : i' ≠ i := fun e => hn (by rw [htn, e])
      exact hother r n i i' htn hne

/-- Left fold of an overwriting pointwise-update step over a list `L` of labels that is strictly
    increasing for an order `lt`. If the label `n` of `L` targets `i'` and no label of `L` above
    `n` does, the fold holds at `i'` the value `n` carries: what comes before `n` is erased by
    `n`'s write, and what comes after `n` does not touch `i'`. -/
theorem foldl_set_last {ι I α : Type} (lt : ι → ι → Prop)
    (tgt : ι → Option I) (val : ι → α) (step : (I → α) → ι → (I → α))
    (hnone : ∀ r n, tgt n = none → step r n = r)
    (hsame : ∀ r n i, tgt n = some i → step r n i = val n)
    (hother : ∀ r n i k, tgt n = some i → k ≠ i → step r n k = r k)
    (i' : I) (n : ι) (hn : tgt n = some i') (L : List ι) :
    ∀ r : I → α, L.Pairwise lt → n ∈ L → (∀ m ∈ L, lt n m → tgt m ≠ some i') →
      L.foldl step r i' = val n := by
  induction L with
  | nil => intro r _ hmem; cases hmem
  | cons a L ih =>
    intro r hp hmem hlast
    rw [List.foldl_cons]
    rw [List.pairwise_cons] at hp
    rcases List.mem_cons.1 hmem with rfl | hmem'
    · rw [foldl_step_of_no_hit tgt step hnone hother i' L _
        (fun m hm => hlast m (List.mem_cons_of_mem _ hm) (hp.1 m hm))]
      exact hsame r n i' hn
    · exact ih _ hp.2 hmem' (fun m hm => hlast m (List.mem_cons_of_mem _ hm))

/-- **Scatter with the overwriting combiner: the last hit wins (by row-major position).** If the
    update at row-major position `n` lands on `i'` and no update at a larger position does, the
    scatter's result at `i'` is that update's value. -/
theorem scatter_set_last_pos {α : Type} {s si u : Shape} {w : Nat}
    (d : ScatterDims s si u) (x : s.Idx → α) (idx : IVec si w) (upd : u.Idx → α) (i' : s.Idx)
    (n : Fin u.numel)
    (hj : d.resultIdx? (u.rowMajor.symm n) idx = some i')
    (hlast : ∀ n' : Fin u.numel, n < n' → d.resultIdx? (u.rowMajor.symm n') idx ≠ some i') :
    Host.scatter d (fun _ b => b) x idx upd i' = upd (u.rowMajor.symm n) := by
  unfold Host.scatter
  refine foldl_set_last (· < ·) (fun n => d.resultIdx? (u.rowMajor.symm n) idx)
    (fun n => upd (u.rowMajor.symm n)) _ ?_ ?_ ?_ i' n hj (List.finRange u.numel) x
    (List.pairwise_lt_finRange _) (List.mem_finRange _) (fun m _ hm => hlast m hm)
  · intro r n hn
    simp only [hn]
  · intro r n i hn
    simp only [hn, if_true]
  · intro r n i k hn hk
    simp only [hn, if_neg hk]

/-- **Scatter with the overwriting combiner: the last hit wins (by update index).** If update
    index `j` lands on `i'` and no update index later in row-major order does, the scatter's
    result at `i'` is `upd j`. -/
theorem scatter_set_last {α : Type} {s si u : Shape} {w : Nat}
    (d : ScatterDims s si u) (x : s.Idx → α) (idx : IVec si w) (upd : u.Idx → α) (i' : s.Idx)
    (j : u.Idx)
    (hj : d.resultIdx? j idx = some i')
    (hlast : ∀ j' : u.Idx, u.rowMajor j < u.rowMajor j' → d.resultIdx? j' idx ≠ some i') :
    Host.scatter d (fun _ b => b) x idx upd i' = upd j := by
  have h := scatter_set_last_pos d x idx upd i' (u.rowMajor j)
    (by rw [Equiv.symm_apply_apply]; exact hj)
    (fun n' hn' => hlast (u.rowMajor.symm n') (by rw [Equiv.apply_symm_apply]; exact hn'))
  rw [Equiv.symm_apply_apply] at h
  exact h

/-- **Scatter with the overwriting combiner, pairwise distinct landings.** If update index `j`
    lands on `i'` and it is the only update index that does, the result at `i'` is `upd j`. -/
theorem scatter_set_of_unique_hit {α : Type} {s si u : Shape} {w : Nat}
    (d : ScatterDims s si u) (x : s.Idx → α) (idx : IVec si w) (upd : u.Idx → α) (i' : s.Idx)
    (j : u.Idx)
    (hj : d.resultIdx? j idx = some i')
    (huniq : ∀ j' : u.Idx, d.resultIdx? j' idx = some i' → j' = j) :
    Host.scatter d (fun _ b => b) x idx upd i' = upd j :=
  scatter_set_last d x idx upd i' j hj (fun j' hlt hhit => by
    rw [huniq j' hhit] at hlt; exact lt_irrefl _ hlt)

end Idealize.ShloMosaic.ScatterLast
-- ==== Proof.LibScatterOnce.lean ====
import proofs.«155765_j76501957477134_1_alg».proof.Proof.LibScatterLast

/-!
# A scatter with any combiner, read at an operand index that at most one update lands on

`Host.scatter d f x idx upd` is the left fold, over the update indices in row-major order, of the
step that replaces the accumulator's element at the update's result index `i` by `f (r i) (upd j)`
(an update that falls outside the operand leaves the accumulator alone).

Whatever the combiner `f`:

* an operand index `i'` that NO update lands on keeps the operand's element `x i'`;
* an operand index `i'` that EXACTLY ONE update index `j` lands on ends at `f (x i') (upd j)`:
  the updates before `j` and after it do not touch `i'`, so `j`'s step combines the operand's own
  element with `upd j`, and the order of the fold does not matter.

The second statement is what a windowed `.at[a:b].add(v)` needs: the window's elements land on
pairwise distinct operand elements. `resultIdx?_eq_some_iff` says where an update lands, axis by axis.
-/

namespace Idealize.ShloMosaic.ScatterOnce
open Idealize.ShloMosaic

/-- Left fold of a pointwise-update step over a duplicate-free list `L` of update labels, `tgt n` the
    (optional) position update `n` writes and `val n` the value it carries. A label with no target
    leaves the accumulator alone; a label with target `i` turns position `i` into `f (r i) (val n)` and
    leaves every other position alone. If `n` is the only label of `L` that targets `i'`, the fold ends
    with `f (r i') (val n)` at `i'`. -/
theorem foldl_step_of_unique_hit {ι I α : Type} (f : α → α → α)
    (tgt : ι → Option I) (val : ι → α) (step : (I → α) → ι → (I → α))
    (hnone : ∀ r n, tgt n = none → step r n = r)
    (hsame : ∀ r n i, tgt n = some i → step r n i = f (r i) (val n))
    (hother : ∀ r n i k, tgt n = some i → k ≠ i → step r n k = r k)
    (i' : I) (n : ι) (hn : tgt n = some i') (L : List ι) :
    ∀ r : I → α, L.Nodup → n ∈ L → (∀ m ∈ L, tgt m = some i' → m = n) →
      L.foldl step r i' = f (r i') (val n) := by
  induction L with
  | nil => intro r _ hmem; cases hmem
  | cons a L ih =>
    intro r hnd hmem huniq
    rw [List.foldl_cons]
    rw [List.nodup_cons] at hnd
    rcases List.mem_cons.1 hmem with rfl | hmem'
    · -- the head is the one hit: nothing after it touches i'
      rw [ScatterLast.foldl_step_of_no_hit tgt step hnone hother i' L _ (fun m hm hhit => by
        have := huniq m (List.mem_cons_of_mem _ hm) hhit
        exact hnd.1 (this ▸ hm))]
      exact hsame r n i' hn
    · -- the head is not the hit: it leaves i' alone
      have hane : tgt a ≠ some i' := fun hhit => by
        have := huniq a (List.mem_cons_self ..) hhit
        exact hnd.1 (this ▸ hmem')
      have hkeep : step r a i' = r i' := by
        cases hta : tgt a with
        | none => rw [hnone r a hta]
        | some i =>
          have hne : i' ≠ i := fun e => hane (by rw [hta, e])
          exact hother r a i i' hta hne
      rw [ih (step r a) hnd.2 hmem' (fun m hm => huniq m (List.mem_cons_of_mem _ hm)), hkeep]

/-- **Scatter, no update lands on `i'`**: the result at `i'` is the operand's element, for any combiner. -/
theorem scatter_of_no_hit {α : Type} {s si u : Shape} {w : Nat}
    (d : ScatterDims s si u) (f : α → α → α) (x : s.Idx → α) (idx : IVec si w) (upd : u.Idx → α) (i' : s.Idx)
    (h : ∀ j : u.Idx, d.resultIdx? j idx ≠ some i') :
    Host.scatter d f x idx upd i' = x i' := by
  unfold Host.scatter
  refine ScatterLast.foldl_step_of_no_hit (fun n => d.resultIdx? (u.rowMajor.symm n) idx) _ ?_ ?_ i'
    (List.finRange u.numel) x (fun n _ => h (u.rowMajor.symm n))
  · intro r n hn
    simp only [hn]
  · intro r n i k hn hk
    simp only [hn, if_neg hk]

/-- **Scatter, exactly one update lands on `i'`**: the result at `i'` is the combiner of the operand's
    element and that update, for any combiner. -/
theorem scatter_of_unique_hit {α : Type} {s si u : Shape} {w : Nat}
    (d : ScatterDims s si u) (f : α → α → α) (x : s.Idx → α) (idx : IVec si w) (upd : u.Idx → α) (i' : s.Idx)
    (j : u.Idx) (hj : d.resultIdx? j idx = some i')
    (huniq : ∀ j' : u.Idx, d.resultIdx? j' idx = some i' → j' = j) :
    Host.scatter d f x idx upd i' = f (x i') (upd j) := by
  unfold Host.scatter
  have h := foldl_step_of_unique_hit f (fun n => d.resultIdx? (u.rowMajor.symm n) idx)
    (fun n => upd (u.rowMajor.symm n))
    (fun r n => match d.resultIdx? (u.rowMajor.symm n) idx with
      | some i => fun i' => if i' = i then f (r i) (upd (u.rowMajor.symm n)) else r i'
      | none => r)
    (fun r n hn => by simp only [hn])
    (fun r n i hn => by simp only [hn, if_true])
    (fun r n i k hn hk => by simp only [hn, if_neg hk])
    i' (u.rowMajor j) (by simp only [Equiv.symm_apply_apply]; exact hj) (List.finRange u.numel) x
    (List.nodup_finRange _) (List.mem_finRange _)
    (fun m _ hm => by
      have := huniq (u.rowMajor.symm m) hm
      rw [← this, Equiv.apply_symm_apply])
  simp only [Equiv.symm_apply_apply] at h
  exact h

/-- An update index lands at the operand index `r` exactly when, on every operand axis, the signed start
    plus the window coordinate is `r`'s coordinate. -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  by_cases h : ∀ a, 0 ≤ d.start j idx a + d.window j a ∧ d.start j idx a + d.window j a < s.size a
  · rw [dif_pos h, Option.some.injEq]
    constructor
    · intro hf a
      have h1 : (d.start j idx a + ↑(d.window j a)).toNat = (r a).val := congrArg (fun g => (g a).val) hf
      have h2 := h a
      omega
    · intro hr
      funext a
      apply Fin.ext
      have h1 := hr a
      show (d.start j idx a + ↑(d.window j a)).toNat = (r a).val
      omega
  · rw [dif_neg h]
    constructor
    · intro hf; exact absurd hf (by simp)
    · intro hr
      exfalso; apply h; intro a
      have h1 := hr a
      have h2 := (r a).isLt
      omega

end Idealize.ShloMosaic.ScatterOnce
-- ==== Proof.LibWindowScatter.lean ====
import proofs.«155765_j76501957477134_1_alg».proof.Proof.LibScatterOnce
import Idealize.ShloMosaic.Lib.ValueIdx

/-!
# A window of whole rows combined into a matrix at one start row, read at an index

`x.at[top : top + L, :].add(v)` on an `A × B` matrix `x` with an `L × B` update `v` prints as a
`stablehlo.scatter` with ONE start index (a one-word index vector naming the start row), both update
axes window axes, no inserted axis. Update element `(p, q)` lands on operand element `(top + p, q)`,
so the landings are pairwise distinct and the result at `(r, c)` is

* `f (x (r, c)) (v (r - top, c))` when `top ≤ r < top + L`, and
* `x (r, c)` otherwise,

for any combiner `f` (`rows_apply`). When the scatter has NO start index at all (an empty index
vector: the window is the whole operand, `x.at[:, :].add(v)`) every element is combined with the
update's element at the same index (`whole_apply`).
-/

namespace Idealize.ShloMosaic.WindowScatter
open Idealize.ShloMosaic ValueIdx ScatterOnce

variable {α : Type} {A B L w : Nat}

/-! ## One start row -/

section OneStart

variable (wf : ScatterDims.WF (⟨2, ![A, B]⟩ : Shape) (⟨1, ![1]⟩ : Shape) (⟨2, ![L, B]⟩ : Shape)
  ([0, 1] : List (Fin 2)) ([] : List (Fin 2)) ([0] : List (Fin 2)) 0)

/-- The dimension numbers of a window of whole rows at one start row. -/
abbrev rowsDims : ScatterDims (⟨2, ![A, B]⟩ : Shape) (⟨1, ![1]⟩ : Shape) (⟨2, ![L, B]⟩ : Shape) :=
  ⟨[0, 1], [], [0], 0, wf⟩

/-- On the row axis the window starts at the one index word, read signed. -/
theorem rows_start_row (j : (⟨2, ![L, B]⟩ : Shape).Idx) (idx : IVec (⟨1, ![1]⟩ : Shape) w) :
    (rowsDims wf).start j idx ⟨0, Nat.zero_lt_two⟩ = (idx (ix1 0)).toInt := by
  have hm : (⟨0, Nat.zero_lt_two⟩ : Fin 2) ∈ ([0] : List (Fin 2)) := by decide
  unfold ScatterDims.start
  rw [dif_pos hm]
  congr 2
  funext b; refine Fin.ext ?_
  match b with
  | ⟨0, _⟩ => rfl

/-- On the column axis, which the index map does not name, the window starts at `0`. -/
theorem rows_start_col (j : (⟨2, ![L, B]⟩ : Shape).Idx) (idx : IVec (⟨1, ![1]⟩ : Shape) w) :
    (rowsDims wf).start j idx ⟨1, Nat.one_lt_two⟩ = 0 := by
  have hm : ¬ (⟨1, Nat.one_lt_two⟩ : Fin 2) ∈ ([0] : List (Fin 2)) := by decide
  unfold ScatterDims.start
  rw [dif_neg hm]

/-- The window coordinate on the row axis is the update's row. -/
theorem rows_window_row (j : (⟨2, ![L, B]⟩ : Shape).Idx) :
    (rowsDims wf).window j ⟨0, Nat.zero_lt_two⟩ = (j 0).val := rfl
/-- The window coordinate on the column axis is the update's column. -/
theorem rows_window_col (j : (⟨2, ![L, B]⟩ : Shape).Idx) :
    (rowsDims wf).window j ⟨1, Nat.one_lt_two⟩ = (j 1).val := rfl

/-- Update element `j` lands on `(r, c)` exactly when `top` plus its row is `r` and its column is `c`. -/
theorem rows_lands_iff (j : (⟨2, ![L, B]⟩ : Shape).Idx) (idx : IVec (⟨1, ![1]⟩ : Shape) w) (top : Nat)
    (htop : (idx (ix1 0)).toInt = (top : Int)) (r : Fin A) (c : Fin B) :
    (rowsDims wf).resultIdx? j idx = some (ix2 r c) ↔ top + (j 0).val = r.val ∧ (j 1).val = c.val := by
  rw [resultIdx?_eq_some_iff]
  constructor
  · intro h
    have h0 := h ⟨0, Nat.zero_lt_two⟩
    have h1 := h ⟨1, Nat.one_lt_two⟩
    rw [rows_start_row, rows_window_row, htop] at h0
    rw [rows_start_col, rows_window_col] at h1
    have e0 : ((ix2 r c : (⟨2, ![A, B]⟩ : Shape).Idx) ⟨0, Nat.zero_lt_two⟩).val = r.val := rfl
    have e1 : ((ix2 r c : (⟨2, ![A, B]⟩ : Shape).Idx) ⟨1, Nat.one_lt_two⟩).val = c.val := rfl
    omega
  · rintro ⟨h0, h1⟩ a
    match a with
    | ⟨0, _⟩ =>
      rw [rows_start_row, rows_window_row, htop]
      show (top : Int) + ((j 0).val : Int) = (r.val : Int)
      omega
    | ⟨1, _⟩ =>
      rw [rows_start_col, rows_window_col]
      show (0 : Int) + ((j 1).val : Int) = (c.val : Int)
      omega

end OneStart

/-- **A window of whole rows at one start row, read at `(r, c)`**: inside the window's rows the
    combiner of the operand's element and the update's element `top` rows up; outside, the operand's
    element. The four list hypotheses say the scatter is of that kind (`rfl` on a printed record). -/
theorem rows_apply (d : ScatterDims (⟨2, ![A, B]⟩ : Shape) (⟨1, ![1]⟩ : Shape) (⟨2, ![L, B]⟩ : Shape))
    (h1 : d.updateWindowDims = ([0, 1] : List (Fin 2))) (h2 : d.insertedWindowDims = ([] : List (Fin 2)))
    (h3 : d.scatterDimsToOperandDims = ([0] : List (Fin 2))) (h4 : d.indexVectorDim = 0)
    (f : α → α → α) (x : (⟨2, ![A, B]⟩ : Shape).Idx → α) (idx : IVec (⟨1, ![1]⟩ : Shape) w) (top : Nat)
    (htop : (idx (ix1 0)).toInt = (top : Int)) (upd : (⟨2, ![L, B]⟩ : Shape).Idx → α) (r : Fin A) (c : Fin B) :
    Host.scatter d f x idx upd (ix2 r c)
      = if h : top ≤ r.val ∧ r.val < top + L then f (x (ix2 r c)) (upd (ix2 ⟨r.val - top, by omega⟩ c))
        else x (ix2 r c) := by
  obtain ⟨uw, iw, sd, iv, wf⟩ := d
  simp only at h1 h2 h3 h4
  subst h1 h2 h3 h4
  by_cases h : top ≤ r.val ∧ r.val < top + L
  · rw [dif_pos h]
    refine scatter_of_unique_hit _ f x idx upd _ (ix2 ⟨r.val - top, by omega⟩ c) ?_ ?_
    · refine (rows_lands_iff wf _ idx top htop r c).2 ⟨?_, rfl⟩
      show top + (r.val - top) = r.val
      omega
    · intro j' hj'
      obtain ⟨a, b⟩ := (rows_lands_iff wf j' idx top htop r c).1 hj'
      funext e; apply Fin.ext
      match e with
      | ⟨0, _⟩ => show (j' 0).val = r.val - top; omega
      | ⟨1, _⟩ => show (j' 1).val = c.val; omega
  · rw [dif_neg h]
    refine scatter_of_no_hit _ f x idx upd _ (fun j hj => h ?_)
    obtain ⟨a, b⟩ := (rows_lands_iff wf j idx top htop r c).1 hj
    have hj0 : (j 0).val < L := idx2_lt0 j
    omega

/-! ## No start index: the window is the whole operand -/

section Whole

variable (wf : ScatterDims.WF (⟨2, ![A, B]⟩ : Shape) (⟨1, ![0]⟩ : Shape) (⟨2, ![A, B]⟩ : Shape)
  ([0, 1] : List (Fin 2)) ([] : List (Fin 2)) ([] : List (Fin 2)) 0)

/-- The dimension numbers of a scatter of the whole operand with no start index. -/
abbrev wholeDims : ScatterDims (⟨2, ![A, B]⟩ : Shape) (⟨1, ![0]⟩ : Shape) (⟨2, ![A, B]⟩ : Shape) :=
  ⟨[0, 1], [], [], 0, wf⟩

/-- No operand axis is named by the (empty) index map: every start is `0`. -/
theorem whole_start (j : (⟨2, ![A, B]⟩ : Shape).Idx) (idx : IVec (⟨1, ![0]⟩ : Shape) w) (a : Fin 2) :
    (wholeDims wf).start j idx a = 0 := by
  have hm : ¬ a ∈ ([] : List (Fin 2)) := List.not_mem_nil
  unfold ScatterDims.start
  rw [dif_neg hm]

/-- The window coordinates are the update's own coordinates. -/
theorem whole_window_row (j : (⟨2, ![A, B]⟩ : Shape).Idx) :
    (wholeDims wf).window j ⟨0, Nat.zero_lt_two⟩ = (j 0).val := rfl
theorem whole_window_col (j : (⟨2, ![A, B]⟩ : Shape).Idx) :
    (wholeDims wf).window j ⟨1, Nat.one_lt_two⟩ = (j 1).val := rfl

/-- Update element `j` lands on operand element `i` exactly when they have the same coordinates. -/
theorem whole_lands_iff (j i : (⟨2, ![A, B]⟩ : Shape).Idx) (idx : IVec (⟨1, ![0]⟩ : Shape) w) :
    (wholeDims wf).resultIdx? j idx = some i ↔ (j 0).val = (i 0).val ∧ (j 1).val = (i 1).val := by
  rw [resultIdx?_eq_some_iff]
  constructor
  · intro h
    have h0 := h ⟨0, Nat.zero_lt_two⟩
    have h1 := h ⟨1, Nat.one_lt_two⟩
    rw [whole_start, whole_window_row] at h0
    rw [whole_start, whole_window_col] at h1
    have e0 : (i ⟨0, Nat.zero_lt_two⟩).val = (i 0).val := rfl
    have e1 : (i ⟨1, Nat.one_lt_two⟩).val = (i 1).val := rfl
    omega
  · rintro ⟨h0, h1⟩ a
    match a with
    | ⟨0, _⟩ =>
      rw [whole_start, whole_window_row]
      show (0 : Int) + ((j 0).val : Int) = ((i 0).val : Int)
      omega
    | ⟨1, _⟩ =>
      rw [whole_start, whole_window_col]
      show (0 : Int) + ((j 1).val : Int) = ((i 1).val : Int)
      omega

end Whole

/-- **A scatter of the whole operand with no start index, read at `i`**: the combiner of the operand's
    element and the update's element at the same index. -/
theorem whole_apply (d : ScatterDims (⟨2, ![A, B]⟩ : Shape) (⟨1, ![0]⟩ : Shape) (⟨2, ![A, B]⟩ : Shape))
    (h1 : d.updateWindowDims = ([0, 1] : List (Fin 2))) (h2 : d.insertedWindowDims = ([] : List (Fin 2)))
    (h3 : d.scatterDimsToOperandDims = ([] : List (Fin 2))) (h4 : d.indexVectorDim = 0)
    (f : α → α → α) (x : (⟨2, ![A, B]⟩ : Shape).Idx → α) (idx : IVec (⟨1, ![0]⟩ : Shape) w)
    (upd : (⟨2, ![A, B]⟩ : Shape).Idx → α) (i : (⟨2, ![A, B]⟩ : Shape).Idx) :
    Host.scatter d f x idx upd i = f (x i) (upd i) := by
  obtain ⟨uw, iw, sd, iv, wf⟩ := d
  simp only at h1 h2 h3 h4
  subst h1 h2 h3 h4
  refine scatter_of_unique_hit _ f x idx upd i i ((whole_lands_iff wf i i idx).2 ⟨rfl, rfl⟩) ?_
  intro j' hj'
  obtain ⟨a, b⟩ := (whole_lands_iff wf j' i idx).1 hj'
  funext e; apply Fin.ext
  match e with
  | ⟨0, _⟩ => exact a
  | ⟨1, _⟩ => exact b

end Idealize.ShloMosaic.WindowScatter
-- ==== Proof.RefBand.lean ====
/-
  The reference, read at an index: after its nine steps it holds the banded product.

  Each step takes a stretch of one stored diagonal (row `k` of `diags` from column `start` on, `L` entries), scales
  the matching `L` rows of `other` by it row by row, and adds the `L × 4096` result into the running sum at the rows
  `top … top + L − 1` (a windowed scatter with one start row; for the main diagonal the window is the whole
  matrix). Read at `(r, c)`: inside the window the sum gains `diags[k, r − top + start] · other[r − top + start, c]`,
  outside it is unchanged — which is the sum plus term `k` of the padded form (`Band.window_step`).
-/
import proofs.«155765_j76501957477134_1_alg».proof.Proof.RefRead
import proofs.«155765_j76501957477134_1_alg».proof.Proof.LibWindowScatter
import proofs.«155765_j76501957477134_1_alg».proof.Proof.BandSpec
import Idealize.ShloMosaic.PureOps.Ideal.Laws

noncomputable section

namespace Cert.ReferenceIdeal.BandRef

open Cert.ReferenceIdeal Cert.ReferenceIdeal.ReadP Idealize.ShloMosaic Idealize.ShloMosaic.ValueIdx

variable (x0 : FVec Ideal S9x8192 .f32) (x1 : FVec Ideal S8192x4096 .f32)

/-- The running sum starts at zero. -/
theorem start_zero (r : Fin 8192) (c : Fin 4096) : val_main_v0 (F := Ideal) (ix2 r c) = 0 := by
  rw [val_main_v0_apply, val_main_cst_apply, Ideal.ofBits_def, Ideal.ofBits_zero_f32]

/-! ## Offset −128: diagonal 0, its first 8064 entries, into rows 128 … 8191 -/

/-- Row `p` of the step's update: the diagonal's entry `p` times row `p` of `other`. -/
theorem upd0 (p : Fin 8064) (c : Fin 4096) :
    val_main_v6 (F := Ideal) x0 x1 (ix2 p c) = x0 (ix2 0 ⟨p.val + 0, by omega⟩) * x1 (ix2 ⟨p.val + 0, by omega⟩ c) := by
  have hp : p.val < 8064 := p.isLt
  rw [val_main_v6_apply, val_main_v5_apply, val_main_v3_apply, val_main_v2_apply, val_main_v1_apply, val_main_v4_apply]
  have e0 : idx_main_v1 (idx_main_v2 (idx_main_v3 (idx_main_v5 (ix2 p c)))) = ix2 0 ⟨p.val + 0, by omega⟩ := by
    funext e; apply Fin.ext
    match e with
    | ⟨0, _⟩ => rfl
    | ⟨1, _⟩ => show p.val % 8064 = p.val + 0; omega
  have e1 : idx_main_v4 (ix2 p c) = ix2 ⟨p.val + 0, by omega⟩ c := by
    funext e; apply Fin.ext
    match e with
    | ⟨0, _⟩ => rfl
    | ⟨1, _⟩ => rfl
  rw [e0, e1]; rfl

theorem stage0 (r : Fin 8192) (c : Fin 4096) :
    val_main_v8 (F := Ideal) x0 x1 (ix2 r c) = val_main_v0 (F := Ideal) (ix2 r c) + Band.term x0 x1 0 0 r c := by
  unfold val_main_v8
  refine (WindowScatter.rows_apply scatter_S8192x4096_S1_S8064x4096_01_n_0_0 rfl rfl rfl rfl
    (FloatOps.addf : Ideal .f32 → Ideal .f32 → Ideal .f32) (val_main_v0 (F := Ideal)) (val_main_v7 (F := Ideal)) 128 rfl
    (val_main_v6 (F := Ideal) x0 x1) r c).trans ?_
  exact Band.window_step x0 x1 0 0 128 8064 0 rfl rfl (Or.inr rfl) _ r c
    (fun p => val_main_v6 (F := Ideal) x0 x1 (ix2 p c)) (fun p => upd0 x0 x1 p c)

/-! ## Offset −64: diagonal 1, its first 8128 entries, into rows 64 … 8191 -/

theorem upd1 (p : Fin 8128) (c : Fin 4096) :
    val_main_v14 (F := Ideal) x0 x1 (ix2 p c) = x0 (ix2 1 ⟨p.val + 0, by omega⟩) * x1 (ix2 ⟨p.val + 0, by omega⟩ c) := by
  have hp : p.val < 8128 := p.isLt
  rw [val_main_v14_apply, val_main_v13_apply, val_main_v11_apply, val_main_v10_apply, val_main_v9_apply, val_main_v12_apply]
  have e0 : idx_main_v9 (idx_main_v10 (idx_main_v11 (idx_main_v13 (ix2 p c)))) = ix2 1 ⟨p.val + 0, by omega⟩ := by
    funext e; apply Fin.ext
    match e with
    | ⟨0, _⟩ => rfl
    | ⟨1, _⟩ => show p.val % 8128 = p.val + 0; omega
  have e1 : idx_main_v12 (ix2 p c) = ix2 ⟨p.val + 0, by omega⟩ c := by
    funext e; apply Fin.ext
    match e with
    | ⟨0, _⟩ => rfl
    | ⟨1, _⟩ => rfl
  rw [e0, e1]; rfl

theorem stage1 (r : Fin 8192) (c : Fin 4096) :
    val_main_v16 (F := Ideal) x0 x1 (ix2 r c) = val_main_v8 (F := Ideal) x0 x1 (ix2 r c) + Band.term x0 x1 1 64 r c := by
  unfold val_main_v16
  refine (WindowScatter.rows_apply scatter_S8192x4096_S1_S8128x4096_01_n_0_0 rfl rfl rfl rfl
    (FloatOps.addf : Ideal .f32 → Ideal .f32 → Ideal .f32) (val_main_v8 (F := Ideal) x0 x1) (val_main_v15 (F := Ideal)) 64 rfl
    (val_main_v14 (F := Ideal) x0 x1) r c).trans ?_
  exact Band.window_step x0 x1 1 64 64 8128 0 rfl rfl (Or.inr rfl) _ r c
    (fun p => val_main_v14 (F := Ideal) x0 x1 (ix2 p c)) (fun p => upd1 x0 x1 p c)

/-! ## Offset −8: diagonal 2, its first 8184 entries, into rows 8 … 8191 -/

theorem upd2 (p : Fin 8184) (c : Fin 4096) :
    val_main_v22 (F := Ideal) x0 x1 (ix2 p c) = x0 (ix2 2 ⟨p.val + 0, by omega⟩) * x1 (ix2 ⟨p.val + 0, by omega⟩ c) := by
  have hp : p.val < 8184 := p.isLt
  rw [val_main_v22_apply, val_main_v21_apply, val_main_v19_apply, val_main_v18_apply, val_main_v17_apply, val_main_v20_apply]
  have e0 : idx_main_v17 (idx_main_v18 (idx_main_v19 (idx_main_v21 (ix2 p c)))) = ix2 2 ⟨p.val + 0, by omega⟩ := by
    funext e; apply Fin.ext
    match e with
    | ⟨0, _⟩ => rfl
    | ⟨1, _⟩ => show p.val % 8184 = p.val + 0; omega
  have e1 : idx_main_v20 (ix2 p c) = ix2 ⟨p.val + 0, by omega⟩ c := by
    funext e; apply Fin.ext
    match e with
    | ⟨0, _⟩ => rfl
    | ⟨1, _⟩ => rfl
  rw [e0, e1]; rfl

theorem stage2 (r : Fin 8192) (c : Fin 4096) :
    val_main_v24 (F := Ideal) x0 x1 (ix2 r c) = val_main_v16 (F := Ideal) x0 x1 (ix2 r c) + Band.term x0 x1 2 120 r c := by
  unfold val_main_v24
  refine (WindowScatter.rows_apply scatter_S8192x4096_S1_S8184x4096_01_n_0_0 rfl rfl rfl rfl
    (FloatOps.addf : Ideal .f32 → Ideal .f32 → Ideal .f32) (val_main_v16 (F := Ideal) x0 x1) (val_main_v23 (F := Ideal)) 8 rfl
    (val_main_v22 (F := Ideal) x0 x1) r c).trans ?_
  exact Band.window_step x0 x1 2 120 8 8184 0 rfl rfl (Or.inr rfl) _ r c
    (fun p => val_main_v22 (F := Ideal) x0 x1 (ix2 p c)) (fun p => upd2 x0 x1 p c)

/-! ## Offset −1: diagonal 3, its first 8191 entries, into rows 1 … 8191 -/

theorem upd3 (p : Fin 8191) (c : Fin 4096) :
    val_main_v30 (F := Ideal) x0 x1 (ix2 p c) = x0 (ix2 3 ⟨p.val + 0, by omega⟩) * x1 (ix2 ⟨p.val + 0, by omega⟩ c) := by
  have hp : p.val < 8191 := p.isLt
  rw [val_main_v30_apply, val_main_v29_apply, val_main_v27_apply, val_main_v26_apply, val_main_v25_apply, val_main_v28_apply]
  have e0 : idx_main_v25 (idx_main_v26 (idx_main_v27 (idx_main_v29 (ix2 p c)))) = ix2 3 ⟨p.val + 0, by omega⟩ := by
    funext e; apply Fin.ext
    match e with
    | ⟨0, _⟩ => rfl
    | ⟨1, _⟩ => show p.val % 8191 = p.val + 0; omega
  have e1 : idx_main_v28 (ix2 p c) = ix2 ⟨p.val + 0, by omega⟩ c := by
    funext e; apply Fin.ext
    match e with
    | ⟨0, _⟩ => rfl
    | ⟨1, _⟩ => rfl
  rw [e0, e1]; rfl

theorem stage3 (r : Fin 8192) (c : Fin 4096) :
    val_main_v32 (F := Ideal) x0 x1 (ix2 r c) = val_main_v24 (F := Ideal) x0 x1 (ix2 r c) + Band.term x0 x1 3 127 r c := by
  unfold val_main_v32
  refine (WindowScatter.rows_apply scatter_S8192x4096_S1_S8191x4096_01_n_0_0 rfl rfl rfl rfl
    (FloatOps.addf : Ideal .f32 → Ideal .f32 → Ideal .f32) (val_main_v24 (F := Ideal) x0 x1) (val_main_v31 (F := Ideal)) 1 rfl
    (val_main_v30 (F := Ideal) x0 x1) r c).trans ?_
  exact Band.window_step x0 x1 3 127 1 8191 0 rfl rfl (Or.inr rfl) _ r c
    (fun p => val_main_v30 (F := Ideal) x0 x1 (ix2 p c)) (fun p => upd3 x0 x1 p c)

/-! ## Offset 0: the main diagonal, all 8192 entries, into every row (a scatter with no start index) -/

theorem upd4 (r : Fin 8192) (c : Fin 4096) :
    val_main_v37 (F := Ideal) x0 x1 (ix2 r c) = x0 (ix2 4 r) * x1 (ix2 r c) := by
  have hr : r.val < 8192 := r.isLt
  rw [val_main_v37_apply, val_main_v36_apply, val_main_v35_apply, val_main_v34_apply, val_main_v33_apply]
  have e0 : idx_main_v33 (idx_main_v34 (idx_main_v35 (idx_main_v36 (ix2 r c)))) = ix2 4 r := by
    funext e; apply Fin.ext
    match e with
    | ⟨0, _⟩ => rfl
    | ⟨1, _⟩ => show r.val % 8192 = r.val; omega
  rw [e0]; rfl

theorem stage4 (r : Fin 8192) (c : Fin 4096) :
    val_main_v38 (F := Ideal) x0 x1 (ix2 r c) = val_main_v32 (F := Ideal) x0 x1 (ix2 r c) + Band.term x0 x1 4 128 r c := by
  unfold val_main_v38
  refine (WindowScatter.whole_apply scatter_S8192x4096_S0_S8192x4096_01_n_n_0 rfl rfl rfl rfl
    (FloatOps.addf : Ideal .f32 → Ideal .f32 → Ideal .f32) (val_main_v32 (F := Ideal) x0 x1) (val_main_c (F := Ideal))
    (val_main_v37 (F := Ideal) x0 x1) (ix2 r c)).trans ?_
  exact congrArg (fun t : EReal => val_main_v32 (F := Ideal) x0 x1 (ix2 r c) + t)
    ((upd4 x0 x1 r c).trans (Band.whole_step x0 x1 r c))

/-! ## Offset +1: diagonal 5 from entry 1 on, 8191 entries, into rows 0 … 8190 -/

theorem upd5 (p : Fin 8191) (c : Fin 4096) :
    val_main_v44 (F := Ideal) x0 x1 (ix2 p c) = x0 (ix2 5 ⟨p.val + 1, by omega⟩) * x1 (ix2 ⟨p.val + 1, by omega⟩ c) := by
  have hp : p.val < 8191 := p.isLt
  rw [val_main_v44_apply, val_main_v43_apply, val_main_v41_apply, val_main_v40_apply, val_main_v39_apply, val_main_v42_apply]
  have e0 : idx_main_v39 (idx_main_v40 (idx_main_v41 (idx_main_v43 (ix2 p c)))) = ix2 5 ⟨p.val + 1, by omega⟩ := by
    funext e; apply Fin.ext
    match e with
    | ⟨0, _⟩ => rfl
    | ⟨1, _⟩ => show 1 + p.val % 8191 = p.val + 1; omega
  have e1 : idx_main_v42 (ix2 p c) = ix2 ⟨p.val + 1, by omega⟩ c := by
    funext e; apply Fin.ext
    match e with
    | ⟨0, _⟩ => show 1 + p.val = p.val + 1; omega
    | ⟨1, _⟩ => rfl
  rw [e0, e1]; rfl

theorem stage5 (r : Fin 8192) (c : Fin 4096) :
    val_main_v46 (F := Ideal) x0 x1 (ix2 r c) = val_main_v38 (F := Ideal) x0 x1 (ix2 r c) + Band.term x0 x1 5 129 r c := by
  unfold val_main_v46
  refine (WindowScatter.rows_apply scatter_S8192x4096_S1_S8191x4096_01_n_0_0 rfl rfl rfl rfl
    (FloatOps.addf : Ideal .f32 → Ideal .f32 → Ideal .f32) (val_main_v38 (F := Ideal) x0 x1) (val_main_v45 (F := Ideal)) 0 rfl
    (val_main_v44 (F := Ideal) x0 x1) r c).trans ?_
  exact Band.window_step x0 x1 5 129 0 8191 1 rfl rfl (Or.inl rfl) _ r c
    (fun p => val_main_v44 (F := Ideal) x0 x1 (ix2 p c)) (fun p => upd5 x0 x1 p c)

/-! ## Offset +8: diagonal 6 from entry 8 on, 8184 entries, into rows 0 … 8183 -/

theorem upd6 (p : Fin 8184) (c : Fin 4096) :
    val_main_v52 (F := Ideal) x0 x1 (ix2 p c) = x0 (ix2 6 ⟨p.val + 8, by omega⟩) * x1 (ix2 ⟨p.val + 8, by omega⟩ c) := by
  have hp : p.val < 8184 := p.isLt
  rw [val_main_v52_apply, val_main_v51_apply, val_main_v49_apply, val_main_v48_apply, val_main_v47_apply, val_main_v50_apply]
  have e0 : idx_main_v47 (idx_main_v48 (idx_main_v49 (idx_main_v51 (ix2 p c)))) = ix2 6 ⟨p.val + 8, by omega⟩ := by
    funext e; apply Fin.ext
    match e with
    | ⟨0, _⟩ => rfl
    | ⟨1, _⟩ => show 8 + p.val % 8184 = p.val + 8; omega
  have e1 : idx_main_v50 (ix2 p c) = ix2 ⟨p.val + 8, by omega⟩ c := by
    funext e; apply Fin.ext
    match e with
    | ⟨0, _⟩ => show 8 + p.val = p.val + 8; omega
    | ⟨1, _⟩ => rfl
  rw [e0, e1]; rfl

theorem stage6 (r : Fin 8192) (c : Fin 4096) :
    val_main_v54 (F := Ideal) x0 x1 (ix2 r c) = val_main_v46 (F := Ideal) x0 x1 (ix2 r c) + Band.term x0 x1 6 136 r c := by
  unfold val_main_v54
  refine (WindowScatter.rows_apply scatter_S8192x4096_S1_S8184x4096_01_n_0_0 rfl rfl rfl rfl
    (FloatOps.addf : Ideal .f32 → Ideal .f32 → Ideal .f32) (val_main_v46 (F := Ideal) x0 x1) (val_main_v53 (F := Ideal)) 0 rfl
    (val_main_v52 (F := Ideal) x0 x1) r c).trans ?_
  exact Band.window_step x0 x1 6 136 0 8184 8 rfl rfl (Or.inl rfl) _ r c
    (fun p => val_main_v52 (F := Ideal) x0 x1 (ix2 p c)) (fun p => upd6 x0 x1 p c)

/-! ## Offset +64: diagonal 7 from entry 64 on, 8128 entries, into rows 0 … 8127 -/

theorem upd7 (p : Fin 8128) (c : Fin 4096) :
    val_main_v60 (F := Ideal) x0 x1 (ix2 p c) = x0 (ix2 7 ⟨p.val + 64, by omega⟩) * x1 (ix2 ⟨p.val + 64, by omega⟩ c) := by
  have hp : p.val < 8128 := p.isLt
  rw [val_main_v60_apply, val_main_v59_apply, val_main_v57_apply, val_main_v56_apply, val_main_v55_apply, val_main_v58_apply]
  have e0 : idx_main_v55 (idx_main_v56 (idx_main_v57 (idx_main_v59 (ix2 p c)))) = ix2 7 ⟨p.val + 64, by omega⟩ := by
    funext e; apply Fin.ext
    match e with
    | ⟨0, _⟩ => rfl
    | ⟨1, _⟩ => show 64 + p.val % 8128 = p.val + 64; omega
  have e1 : idx_main_v58 (ix2 p c) = ix2 ⟨p.val + 64, by omega⟩ c := by
    funext e; apply Fin.ext
    match e with
    | ⟨0, _⟩ => show 64 + p.val = p.val + 64; omega
    | ⟨1, _⟩ => rfl
  rw [e0, e1]; rfl

theorem stage7 (r : Fin 8192) (c : Fin 4096) :
    val_main_v62 (F := Ideal) x0 x1 (ix2 r c) = val_main_v54 (F := Ideal) x0 x1 (ix2 r c) + Band.term x0 x1 7 192 r c := by
  unfold val_main_v62
  refine (WindowScatter.rows_apply scatter_S8192x4096_S1_S8128x4096_01_n_0_0 rfl rfl rfl rfl
    (FloatOps.addf : Ideal .f32 → Ideal .f32 → Ideal .f32) (val_main_v54 (F := Ideal) x0 x1) (val_main_v61 (F := Ideal)) 0 rfl
    (val_main_v60 (F := Ideal) x0 x1) r c).trans ?_
  exact Band.window_step x0 x1 7 192 0 8128 64 rfl rfl (Or.inl rfl) _ r c
    (fun p => val_main_v60 (F := Ideal) x0 x1 (ix2 p c)) (fun p => upd7 x0 x1 p c)

/-! ## Offset +128: diagonal 8 from entry 128 on, 8064 entries, into rows 0 … 8063 -/

theorem upd8 (p : Fin 8064) (c : Fin 4096) :
    val_main_v68 (F := Ideal) x0 x1 (ix2 p c) = x0 (ix2 8 ⟨p.val + 128, by omega⟩) * x1 (ix2 ⟨p.val + 128, by omega⟩ c) := by
  have hp : p.val < 8064 := p.isLt
  rw [val_main_v68_apply, val_main_v67_apply, val_main_v65_apply, val_main_v64_apply, val_main_v63_apply, val_main_v66_apply]
  have e0 : idx_main_v63 (idx_main_v64 (idx_main_v65 (idx_main_v67 (ix2 p c)))) = ix2 8 ⟨p.val + 128, by omega⟩ := by
    funext e; apply Fin.ext
    match e with
    | ⟨0, _⟩ => rfl
    | ⟨1, _⟩ => show 128 + p.val % 8064 = p.val + 128; omega
  have e1 : idx_main_v66 (ix2 p c) = ix2 ⟨p.val + 128, by omega⟩ c := by
    funext e; apply Fin.ext
    match e with
    | ⟨0, _⟩ => show 128 + p.val = p.val + 128; omega
    | ⟨1, _⟩ => rfl
  rw [e0, e1]; rfl

theorem stage8 (r : Fin 8192) (c : Fin 4096) :
    val_main_v70 (F := Ideal) x0 x1 (ix2 r c) = val_main_v62 (F := Ideal) x0 x1 (ix2 r c) + Band.term x0 x1 8 256 r c := by
  unfold val_main_v70
  refine (WindowScatter.rows_apply scatter_S8192x4096_S1_S8064x4096_01_n_0_0 rfl rfl rfl rfl
    (FloatOps.addf : Ideal .f32 → Ideal .f32 → Ideal .f32) (val_main_v62 (F := Ideal) x0 x1) (val_main_v69 (F := Ideal)) 0 rfl
    (val_main_v68 (F := Ideal) x0 x1) r c).trans ?_
  exact Band.window_step x0 x1 8 256 0 8064 128 rfl rfl (Or.inl rfl) _ r c
    (fun p => val_main_v68 (F := Ideal) x0 x1 (ix2 p c)) (fun p => upd8 x0 x1 p c)

/-! ## The nine steps together -/

/-- The reference's result is the banded product of its two arguments. -/
theorem result_eq : val_main_v70 (F := Ideal) x0 x1 = Band.band x0 x1 := by
  funext i
  obtain ⟨r, c, rfl⟩ : ∃ (r : Fin 8192) (c : Fin 4096), i = ix2 r c := ⟨i 0, i 1, eq_ix2 i⟩
  rw [stage8, stage7, stage6, stage5, stage4, stage3, stage2, stage1, stage0, start_zero]
  rfl

end Cert.ReferenceIdeal.BandRef

end
-- ==== Proof.lean ====
/-
  The certificate of the banded (nine-diagonal) matrix product.

  `A` is the 8192 × 8192 matrix whose only non-zero entries lie on the diagonals at the offsets −128, −64, −8, −1,
  0, 1, 8, 64, 128, diagonal `k` stored in row `k` of `diags` and indexed by the column of `A`; the result is
  `A · other` for a dense 8192 × 4096 matrix `other`:
      out[r, c] = Σ_k [0 ≤ r + off_k < 8192] diags[k, r + off_k] · other[r + off_k, c].
  The kernel pads both arrays with 128 zeros on either side and adds all nine products, those outside the band
  being `0 · 0`; the reference adds, diagonal by diagonal, only the rows inside the band. On the extended reals
  `0 · 0 = 0` and `x + 0 = x`, and both programs add the nine terms in the same order onto zero, so the two results
  are equal element by element with no use of finiteness: both are `Band.band diags other`
  (the kernel by `Cert.KernelIdeal.BandValue.run`, the reference by `Cert.ReferenceIdeal.BandRef.result_eq`).
  The idealization rewrote nothing, so `preserves` is trivial.
-/
import proofs.«155765_j76501957477134_1_alg».proof.Defs
import proofs.«155765_j76501957477134_1_alg».proof.Proof.Gen.Kernel
import proofs.«155765_j76501957477134_1_alg».proof.Proof.Gen.Kernel.Skeleton
import proofs.«155765_j76501957477134_1_alg».proof.Proof.Gen.Kernel.Launch
import proofs.«155765_j76501957477134_1_alg».proof.Proof.Gen.Kernel.Points
import proofs.«155765_j76501957477134_1_alg».proof.Proof.Gen.Kernel.Frame
import proofs.«155765_j76501957477134_1_alg».proof.Proof.Gen.KernelIdeal
import proofs.«155765_j76501957477134_1_alg».proof.Proof.Gen.KernelIdeal.Skeleton
import proofs.«155765_j76501957477134_1_alg».proof.Proof.Gen.KernelIdeal.Launch
import proofs.«155765_j76501957477134_1_alg».proof.Proof.Gen.KernelIdeal.Points
import proofs.«155765_j76501957477134_1_alg».proof.Proof.Gen.KernelIdeal.Frame
import proofs.«155765_j76501957477134_1_alg».proof.Proof.Gen.ReferenceIdeal
import proofs.«155765_j76501957477134_1_alg».proof.Proof.Gen.Pre_finite_inputs
import proofs.«155765_j76501957477134_1_alg».proof.Proof.Gen.KernelIdeal.Value
import proofs.«155765_j76501957477134_1_alg».proof.Proof.RefRun
import proofs.«155765_j76501957477134_1_alg».proof.Proof.RefRead
import proofs.«155765_j76501957477134_1_alg».proof.Proof.KernelBand
import proofs.«155765_j76501957477134_1_alg».proof.Proof.RefBand
import Idealize.ShloMosaic.Adequacy
import Idealize.ShloMosaic.Init

noncomputable section

namespace Cert.Proof

open Idealize.ShloMosaic Idealize.ShloMosaic.TcCoe Idealize.SL.Sem

/-- Both idealized programs end with the banded product of the (agreeing) arguments in their result arrays. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.KernelIdeal.BandValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v70_eq, Cert.ReferenceIdeal.BandRef.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.ValueP.run (F := Ideal) m ρ),
  trivial,
  algebraic⟩

end Cert.Proof

end
